-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S4096x64 : Shape := ⟨2, ![4096, 64]⟩
abbrev S4096 : Shape := ⟨1, ![4096]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x64 .f32) (main_arg1 : FVec F S4096x64 .f32) (main_arg2 : FVec F S4096 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x64 : Shape := ⟨2, ![16384, 64]⟩
abbrev S4096x64 : Shape := ⟨2, ![4096, 64]⟩
abbrev S4096 : Shape := ⟨1, ![4096]⟩
abbrev S_ : Shape := ⟨0, ![]⟩
abbrev S1x4096 : Shape := ⟨2, ![1, 4096]⟩
abbrev S16384x4096 : Shape := ⟨2, ![16384, 4096]⟩
abbrev S1024x64 : Shape := ⟨2, ![1024, 64]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 13
  | .vmem => 10
  | .smem => 0
  | _ => 0

abbrev bufTy : (tb : Table) → Fin (tcTables nBuf tb) → BufTy
  | .hbm, ⟨0, _⟩ => ⟨S16384x64, .f32⟩
  | .hbm, ⟨1, _⟩ => ⟨S4096x64, .f32⟩
  | .hbm, ⟨2, _⟩ => ⟨S4096, .f32⟩
  | .hbm, ⟨3, _⟩ => ⟨S4096x64, .f32⟩
  | .hbm, ⟨4, _⟩ => ⟨S_, .f32⟩
  | .hbm, ⟨5, _⟩ => ⟨S4096, .f32⟩
  | .hbm, ⟨6, _⟩ => ⟨S1x4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S1x4096, .f32⟩
  | .hbm, ⟨12, _⟩ => ⟨S16384x4096, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S4096x64_S4096_d1 : S4096x64.ReducesTo [1] S4096
  h_S_ : 0 < S_.numel
  shapeCasts_S4096_S1x4096 : S4096.ShapeCasts S1x4096
  bcast_S_S4096 : S_.BroadcastsInDim S4096 (![] : Fin 0 → Fin S4096.rank)
  inb_S1024x64_S1024x64_0_0 : ∀ a, (![0, 0] : Fin 2 → Nat) a + S1024x64.size a ≤ S1024x64.size a
  h_S1024x64 : 0 < S1024x64.numel
  reduces_S1024x64_S1024 : S1024x64.Reduces [1] S1024
  shapeCasts_S1024_S1024x1 : S1024.ShapeCasts S1024x1
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S16384x64.size a
  hwx0_0 : ∀ i : grid0.Coords, EltTy.bits .f32 = 32 ∨ (Rect.block (s := S16384x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S4096x64.size a
  hwx0_1 : ∀ i : grid0.Coords, EltTy.bits .f32 = 32 ∨ (Rect.block (s := S4096x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x4096.size a
  hwx0_4 : ∀ i : grid0.Coords, EltTy.bits .f32 = 32 ∨ (Rect.block (s := S16384x4096) S1024x1024.size (cc0_transform_4 i) (hinb0_4 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x64 : Shape := ⟨2, ![16384, 64]⟩
abbrev S4096x64 : Shape := ⟨2, ![4096, 64]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x4096 : Shape := ⟨2, ![16384, 4096]⟩
abbrev S64x4096 : Shape := ⟨2, ![64, 4096]⟩

abbrev nBuf : Space → Nat
  | .hbm => 32
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S4096x64, .f32⟩
  | .hbm, ⟨2, _⟩ => ⟨S4096, .f32⟩
  | .hbm, ⟨3, _⟩ => ⟨S16384x64, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S4096x64, .f32⟩
  | .hbm, ⟨8, _⟩ => ⟨S_, .f32⟩
  | .hbm, ⟨9, _⟩ => ⟨S4096, .f32⟩
  | .hbm, ⟨10, _⟩ => ⟨S1x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x64, .f32⟩
  | .hbm, ⟨16, _⟩ => ⟨S16384x64, .f32⟩
  | .hbm, ⟨17, _⟩ => ⟨S64x4096, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S16384x4096, .f32⟩
  | .hbm, ⟨22, _⟩ => ⟨S16384x4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S1x4096, .f32⟩
  | .hbm, ⟨28, _⟩ => ⟨S16384x4096, .f32⟩
  | .hbm, ⟨29, _⟩ => ⟨S16384x4096, .f32⟩
  | .hbm, ⟨30, _⟩ => ⟨S16384x4096, .f32⟩
  | .hbm, ⟨31, _⟩ => ⟨S16384x4096, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  reducesTo_S16384x64_S16384_d1 : S16384x64.ReducesTo [1] S16384
  h_S_ : 0 < S_.numel
  bcast_S16384_S16384x1_0 : S16384.BroadcastsInDim S16384x1 (![0] : Fin 1 → Fin S16384x1.rank)
  reducesTo_S4096x64_S4096_d1 : S4096x64.ReducesTo [1] S4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  bcast_S_S16384x64 : S_.BroadcastsInDim S16384x64 (![] : Fin 0 → Fin S16384x64.rank)
  transposes_S4096x64_S64x4096_1_0 : S4096x64.Transposes [1, 0] S64x4096
  bcast_S_S16384x4096 : S_.BroadcastsInDim S16384x4096 (![] : Fin 0 → Fin S16384x4096.rank)
  bcast_S_S4096 : S_.BroadcastsInDim S4096 (![] : Fin 0 → Fin S4096.rank)
  dot_S16384x64_S64x4096_S16384x4096_1_0_0_1_n_n_wf : DotDims.WF S16384x64 S64x4096 S16384x4096 [1] [0] [0] [1] [] []

variable [Facts₀]

def dot_S16384x64_S64x4096_S16384x4096_1_0_0_1_n_n : DotDims S16384x64 S64x4096 S16384x4096 where
  lhsContracting := [1]
  rhsContracting := [0]
  lhsNonContracting := [0]
  rhsNonContracting := [1]
  lhsBatch := []
  rhsBatch := []
  wf := dot_S16384x64_S64x4096_S16384x4096_1_0_0_1_n_n_wf

class Facts : Prop extends Facts₀ where

variable [Facts]
-- ==== Proof.RbfSpec.lean ====
/-
  The radial-basis layer as ONE function of its three argument arrays, index by index, on the extended reals:
  for a row `p` of `x` [16384, 64] and a centre `q` of `c` [4096, 64],
    d(p, q) = (∑ₖ x[p,k]² + ∑ₖ c[q,k]²) - 2 · ∑ₖ x[p,k] · c[q,k]        (the squared distance by the norm identity)
    out[p, q] = exp (-(max d(p, q) 0) · exp (-2 · ls[q])).
  The two float constants stay the bit patterns both programs spell; only of `2.0` is anything used: it denotes a
  nonnegative finite number, so it moves across a finite sum (the extended reals distribute a nonnegative finite factor
  over any sum, infinite terms included). No finiteness of the inputs is needed for that.
-/
import Idealize.ShloMosaic.PureOps.Ideal
import Idealize.ShloMosaic.PureOps.Ideal.Laws
import Idealize.ShloMosaic.Lib.ValueIdx

noncomputable section

open scoped BigOperators

namespace Cert.Rbf

open Idealize.ShloMosaic Idealize.ShloMosaic.ValueIdx

/-- The shapes of `x`, of the centres, of the log-widths and of the result. -/
abbrev SX : Shape := ⟨2, ![16384, 64]⟩
abbrev SC : Shape := ⟨2, ![4096, 64]⟩
abbrev SL : Shape := ⟨1, ![4096]⟩
abbrev SO : Shape := ⟨2, ![16384, 4096]⟩

/-- The pattern `0x40000000` denotes the real number two. -/
theorem ofBits_two : Ideal.ofBits .f32 0x40000000#32 = ((2 : ℝ) : EReal) := by
  simp [Ideal.ofBits, Ideal.ieee, -EReal.coe_mul]; norm_num

theorem ofBits_two_nonneg : (0 : EReal) ≤ Ideal.ofBits .f32 0x40000000#32 := by
  rw [ofBits_two]; exact EReal.coe_nonneg.mpr (by norm_num)

theorem ofBits_two_ne_top : Ideal.ofBits .f32 0x40000000#32 ≠ ⊤ := by
  rw [ofBits_two]; exact EReal.coe_ne_top _

/-- A nonnegative finite factor moves into a finite sum of extended reals, whatever the terms. -/
theorem mul_sum_of_nonneg_of_ne_top {ι : Type} (s : Finset ι) (a : EReal) (ha : 0 ≤ a) (ha' : a ≠ ⊤) (f : ι → EReal) :
    a * ∑ k ∈ s, f k = ∑ k ∈ s, a * f k := by
  classical
  induction s using Finset.induction_on with
  | empty => simp
  | insert i s hi ih =>
    rw [Finset.sum_insert hi, Finset.sum_insert hi, EReal.left_distrib_of_nonneg_of_ne_top ha ha', ih]

/-- So scaling the left factors of a sum of products scales the sum: `∑ₖ (a · fₖ) · gₖ = a · ∑ₖ fₖ · gₖ`. -/
theorem sum_scaled_mul (a : EReal) (ha : 0 ≤ a) (ha' : a ≠ ⊤) {n : ℕ} (f g : Fin n → EReal) :
    ∑ k, (a * f k) * g k = a * ∑ k, f k * g k := by
  rw [mul_sum_of_nonneg_of_ne_top _ a ha ha']
  exact Finset.sum_congr rfl fun k _ => mul_assoc _ _ _

/-- The squared distance of row `p` of `x` from centre `q`, by the norm identity. -/
def sqDist (x : SX.Idx → EReal) (c : SC.Idx → EReal) (p : Fin 16384) (q : Fin 4096) : EReal :=
  (∑ k : Fin 64, x (ix2 p k) * x (ix2 p k) + ∑ k : Fin 64, c (ix2 q k) * c (ix2 q k))
    - Ideal.ofBits .f32 0x40000000#32 * ∑ k : Fin 64, x (ix2 p k) * c (ix2 q k)

/-- The layer's value at row `p` and centre `q`. -/
def rbfAt (x : SX.Idx → EReal) (c : SC.Idx → EReal) (ls : SL.Idx → EReal) (p : Fin 16384) (q : Fin 4096) : EReal :=
  Ideal.exp (-(max (sqDist x c p q) 0) * Ideal.exp (Ideal.ofBits .f32 0xC0000000#32 * ls (ix1 q)))

/-- The whole result array. -/
def rbf (x : SX.Idx → EReal) (c : SC.Idx → EReal) (ls : SL.Idx → EReal) : SO.Idx → EReal := fun i =>
  rbfAt x c ls ⟨(i 0).val, (i 0).isLt⟩ ⟨(i 1).val, (i 1).isLt⟩

theorem rbf_ix2 (x : SX.Idx → EReal) (c : SC.Idx → EReal) (ls : SL.Idx → EReal) (p : Fin 16384) (q : Fin 4096) :
    rbf x c ls (ix2 p q) = rbfAt x c ls p q := rfl

/-- The result at an index whose coordinates are those of row `p` and centre `q`. -/
theorem rbf_of_coords (x : SX.Idx → EReal) (c : SC.Idx → EReal) (ls : SL.Idx → EReal) (i : SO.Idx) (p : Fin 16384) (q : Fin 4096)
    (h0 : (i 0).val = p.val) (h1 : (i 1).val = q.val) : rbf x c ls i = rbfAt x c ls p q := by
  unfold rbf
  rw [show (⟨(i 0).val, (i 0).isLt⟩ : Fin 16384) = p from Fin.ext h0, show (⟨(i 1).val, (i 1).isLt⟩ : Fin 4096) = q from Fin.ext h1]

end Cert.Rbf

end
-- ==== Proof.RefValue.lean ====
/-
  The reference's result is the layer's function of the three arguments, index by index. Its last stage is read one
  operation at a time down to the arguments: the two row sums come out as `0 + ∑ₖ` (the host's reduce from the zero
  pattern), the matrix product as `∑ₖ (2 · x[p,k]) · c[q,k]` — the reference doubles `x` BEFORE the product, the layer's
  function doubles the product — and the negation as `-·`. The one step that is not a reading is moving the factor two
  out of the sum (`Cert.Rbf.sum_scaled_mul`).
-/
import proofs.«110846_j49572512530486_1_alg».proof.Proof.Gen.ReferenceIdeal.Read
import proofs.«110846_j49572512530486_1_alg».proof.Proof.RbfSpec

noncomputable section

open scoped BigOperators

namespace Cert.ReferenceIdeal.RefValue

open Cert.ReferenceIdeal Cert.ReferenceIdeal.Gen Cert.ReferenceIdeal.Read Idealize.ShloMosaic Idealize.ShloMosaic.ValueIdx

/-- The row of `x` that the first row sum reads at result index `i`. -/
theorem idx_xsq (i : S16384x4096.Idx) (k : Fin 64) :
    idx_main_v1 (idx_main_v2 (idx_main_v6 i)) k = ix2 (⟨(i 0).val, (i 0).isLt⟩ : Fin 16384) k :=
  funext fun a => Fin.ext (by match a with | ⟨0, _⟩ => rfl | ⟨1, _⟩ => rfl)

/-- The row of the centres that the second row sum reads. -/
theorem idx_csq (i : S16384x4096.Idx) (k : Fin 64) :
    idx_main_v4 (idx_main_v5 (idx_main_v7 i)) k = ix2 (⟨(i 1).val, (i 1).isLt⟩ : Fin 4096) k :=
  funext fun a => Fin.ext (by match a with | ⟨0, _⟩ => rfl | ⟨1, _⟩ => rfl)

/-- The product's left operand index. -/
theorem idx_lhs (i : S16384x4096.Idx) (k : Fin 64) :
    lidx_main_v12 i k = ix2 (⟨(i 0).val, (i 0).isLt⟩ : Fin 16384) k :=
  funext fun a => Fin.ext (by match a with | ⟨0, _⟩ => rfl | ⟨1, _⟩ => rfl)

/-- The product's right operand index, through the transpose. -/
theorem idx_rhs (i : S16384x4096.Idx) (k : Fin 64) :
    idx_main_v11 (ridx_main_v12 i k) = ix2 (⟨(i 1).val, (i 1).isLt⟩ : Fin 4096) k :=
  funext fun a => Fin.ext (by match a with | ⟨0, _⟩ => rfl | ⟨1, _⟩ => rfl)

/-- The log-width the last factor reads. -/
theorem idx_ls (i : S16384x4096.Idx) :
    idx_main_v19 (idx_main_v21 i) = ix1 (⟨(i 1).val, (i 1).isLt⟩ : Fin 4096) :=
  funext fun a => Fin.ext (by match a with | ⟨0, _⟩ => rfl)

/-- The reference's last stage IS the layer's function. -/
theorem result_eq (x0 : (⟨S16384x64, .f32⟩ : BufTy).Contents (Elt Ideal)) (x1 : (⟨S4096x64, .f32⟩ : BufTy).Contents (Elt Ideal))
    (x2 : (⟨S4096, .f32⟩ : BufTy).Contents (Elt Ideal)) :
    val_main_v23 (F := Ideal) x0 x1 x2 = Cert.Rbf.rbf x0 x1 x2 := by
  funext i
  simp only [val_main_v23_apply, val_main_v22_apply, val_main_v21_apply, val_main_v20_apply, val_main_v19_apply,
    val_main_v18_apply, val_main_v17_apply, val_main_v16_apply, val_main_cst_3_apply, val_main_v15_apply,
    val_main_v14_apply, val_main_cst_2_apply, val_main_v13_apply, val_main_v12_apply, val_main_v11_apply,
    val_main_v10_apply, val_main_v9_apply, val_main_cst_1_apply, val_main_v8_apply, val_main_v7_apply,
    val_main_v6_apply, val_main_v5_apply, val_main_v4_apply, val_main_cst_0_apply, val_main_v3_apply,
    val_main_v2_apply, val_main_v1_apply, val_main_cst_apply, val_main_v0_apply,
    idx_xsq, idx_csq, idx_lhs, idx_rhs, idx_ls,
    Ideal.mulf_def, Ideal.addf_def, Ideal.subf_def, Ideal.maximumf_def, Ideal.hostNegf_def, Ideal.hostUnary_exp_def,
    Ideal.ofBits_def, Ideal.ofBits_zero_f32, zero_add]
  rw [Cert.Rbf.sum_scaled_mul _ Cert.Rbf.ofBits_two_nonneg Cert.Rbf.ofBits_two_ne_top]
  rfl

end Cert.ReferenceIdeal.RefValue

end
-- ==== Proof.KernelPoint.lean ====
/-
  One grid point's arithmetic, read at one element. The body's stored value is
    exp ((0 - max ((rowsum(x·x) + c²) - 2 · (x ⬝ cᵀ)) 0) · w)
  of the point's four blocks: `x` [1024, 64] rows of the input, `c` [1024, 64] rows of the centres, and two rows
  [1, 1024], the centres' squared norms and the inverse squared widths. At element (p, q) of the [1024, 1024] block that is
  the row sum of `x`'s row p (kept as a column and spread over the lanes), the norm row at q (spread over the sublanes),
  and the matrix unit's product of the bf16 casts — the identity at the ideal values — into a zero accumulator: the plain
  sum over the 64 shared coordinates of `x[p,k] · c[q,k]`.
-/
import proofs.«110846_j49572512530486_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Point

open Cert.KernelIdeal Cert.KernelIdeal.Gen Idealize.ShloMosaic Idealize.ShloMosaic.ValueIdx

/-! ## The layout operations of a kept-dimension row sum -/

/-- A [1024] vector viewed as a [1024, 1] column reads, at (p, u), the vector at p. -/
theorem column_cast_apply (v : FVec Ideal S1024 .f32) (h : S1024.ShapeCasts S1024x1) (p : Fin 1024) (u : Fin 1) :
    shapeCast S1024x1 v h (ix2 p u) = v (ix1 p) :=
  shapeCast_apply v h _ _ (by
    have hu := u.isLt
    rw [Shape.rowMajor_val_one, Shape.rowMajor_val_two]
    show p.val = p.val * 1 + u.val
    omega)

/-- A [1024, 1] column spread over 1024 lanes reads, at (p, q), the column at p. -/
theorem column_spread_apply (v : FVec Ideal S1024x1 .f32) (h : S1024x1.Broadcasts S1024x1024) (p q : Fin 1024) :
    broadcastTo S1024x1024 v h (ix2 p q) = v (ix2 p (0 : Fin 1)) := by
  refine broadcastTo_apply v h (ix2 p q) (ix2 p (0 : Fin 1)) fun ax => ?_
  match ax with
  | ⟨0, _⟩ => show p.val = if (1024 : ℕ) = 1 then 0 else p.val; rw [if_neg (by decide)]
  | ⟨1, _⟩ => show (0 : ℕ) = if (1 : ℕ) = 1 then 0 else q.val; rw [if_pos rfl]

/-- A [1, 1024] row spread over 1024 sublanes reads, at (p, q), the row at q. -/
theorem row_spread_apply (v : FVec Ideal S1x1024 .f32) (h : S1x1024.Broadcasts S1024x1024) (p q : Fin 1024) :
    broadcastTo S1024x1024 v h (ix2 p q) = v (ix2 (0 : Fin 1) q) :=
  broadcastTo_1b_ab_apply v h p q

/-- The lane sum of a [1024, 64] block from the zero pattern, at row p: the sum over the row's 64 entries. -/
theorem row_sum_apply (src : FVec Ideal S1024x64 .f32) (hφ : FKind.Formats .f32)
    (hacc : (0x00000000#32 : BitVec 32) = 0x00000000#32) (p : Fin 1024) :
    multiReduction .add [1] S1024 src 0x00000000#32 reduces_S1024x64_S1024 hφ hacc (ix1 p)
      = ∑ k : Fin 64, src (ix2 p k) :=
  (Ideal.multiReduction_add_single src 0x00000000#32 reduces_S1024x64_S1024 hφ hacc (ix1 p)).trans
    (Finset.sum_congr rfl fun k _ => congrArg src (funext fun a => Fin.ext (by
      match a with
      | ⟨0, _⟩ => rfl
      | ⟨1, _⟩ => rfl)))

/-! ## The matrix unit's product at an element -/

theorem lhs_axis0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
theorem lhs_axis1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
theorem rhs_axis0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
theorem rhs_axis1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- Both operands are contracted along their second axis, so element (p, q) of the product into a zero accumulator is
    the sum over k of `a[p,k] · b[q,k]`. -/
theorem product_apply (a b : FVec Ideal S1024x64 .bf16) (p q : Fin 1024) :
    matmul dot_S1024x64_S1024x64_S1024x1024_1_1_0_0_n_n none a b (constant (F := Ideal) S1024x1024 .f32 0x00000000#32) (ix2 p q)
      = ∑ k : Fin 64, a (ix2 p k) * b (ix2 q k) := by
  simp only [matmul]
  rw [Ideal.matmul_constant_zero_apply, ← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 p q) ((contrEquiv1 dot_S1024x64_S1024x64_S1024x1024_1_1_0_0_n_n 64 rfl rfl).symm k) = ix2 p k := funext fun a => Fin.ext (by
    match a with
    | ⟨0, _⟩ => exact lhs_axis0 _ _
    | ⟨1, _⟩ => exact (lhs_axis1 _ _).trans hk)
  have er : dot_S1024x64_S1024x64_S1024x1024_1_1_0_0_n_n.rhsIdx (ix2 p q) ((contrEquiv1 dot_S1024x64_S1024x64_S1024x1024_1_1_0_0_n_n 64 rfl rfl).symm k) = ix2 q k := funext fun a => Fin.ext (by
    match a with
    | ⟨0, _⟩ => exact rhs_axis0 _ _
    | ⟨1, _⟩ => exact (rhs_axis1 _ _).trans hk)
  rw [el, er]

/-! ## The stored value at an element -/

theorem exp_apply {s : Shape} {φ : FTy} (a : FVec Ideal s φ) (i : s.Idx) : exp a i = Ideal.exp (a i) := rfl

/-- The point's stored block at (p, q), from its four loaded blocks. -/
theorem stored_apply (x c : FVec Ideal S1024x64 .f32) (n w : FVec Ideal S1x1024 .f32) (p q : Fin 1024) :
    k0_pay1 (F := Ideal) x c n w (ix2 p q)
      = Ideal.exp ((0 - max ((∑ k : Fin 64, x (ix2 p k) * x (ix2 p k) + n (ix2 (0 : Fin 1) q))
            - Ideal.ofBits .f32 0x40000000#32 * ∑ k : Fin 64, x (ix2 p k) * c (ix2 q k)) 0) * w (ix2 (0 : Fin 1) q)) := by
  unfold k0_pay1
  simp only [exp_apply, mulf_apply, subf_apply, maximumf_apply, addf_apply, broadcast_apply, column_spread_apply,
    column_cast_apply, row_spread_apply, product_apply, shapeCast_self, truncf_apply,
    Ideal.ofBits_def, Ideal.ofBits_zero_f32]
  -- what is left differs only in the row sum, still spelt as the lane reduction
  refine congrArg (fun z => Ideal.exp ((0 - max (z + n (ix2 (0 : Fin 1) q)
    - Ideal.ofBits .f32 0x40000000#32 * ∑ k : Fin 64, x (ix2 p k) * c (ix2 q k)) 0) * w (ix2 (0 : Fin 1) q))) ?_
  exact row_sum_apply (mulf x x) _ _ p

end Cert.KernelIdeal.Point

end
-- ==== Proof.KernelArray.lean ====
/-
  From the grid's 64 blocks to the whole result array. Point t = (i, j) of the 16 × 4 grid reads rows
  [1024 i, 1024 i + 1024) of `x`, rows [1024 j, 1024 j + 1024) of the centres and columns [1024 j, 1024 j + 1024) of the
  two rows the host prepared (the centres' squared norms, `0 + ∑ₖ c[q,k]²`, and the inverse squared widths,
  `exp (-2 · ls[q])`), and writes block (i, j) of the [16384, 4096] result. Element (p, q) of that block is the layer's
  value at row 1024 i + p and centre 1024 j + q; the blocks tile the result, so after the run the array is the layer's
  function of the three arguments everywhere.
-/
import proofs.«110846_j49572512530486_1_alg».proof.Proof.Gen.KernelIdeal.Value
import proofs.«110846_j49572512530486_1_alg».proof.Proof.KernelPoint
import proofs.«110846_j49572512530486_1_alg».proof.Proof.RbfSpec
import Idealize.ShloMosaic.Lib.StableHlo.Run
import Idealize.ShloMosaic.Lib.ValueLayout

set_option maxRecDepth 16384

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The three argument arrays as launched, at their literal types. -/
abbrev arrX (c : Dev nD) : FVec Ideal S16384x64 .f32 := m ((c : Thread nD τ).loc main_arg0)
abbrev arrC (c : Dev nD) : FVec Ideal S4096x64 .f32 := m ((c : Thread nD τ).loc main_arg1)
abbrev arrL (c : Dev nD) : FVec Ideal S4096 .f32 := m ((c : Thread nD τ).loc main_arg2)

/-- The layer's function of the three arguments as launched. -/
abbrev result (c : Dev nD) : S16384x4096.Idx → EReal :=
  Cert.Rbf.rbf (arrX m c) (arrC m c) (arrL m c)

/-! ## The two rows the host prepares before the region -/

/-- The norms row as the region finds it: the row sums of the centres' squares, viewed [1, 4096]. -/
theorem norms_row (c : Dev nD) : (V m c main_v2 : S1x4096.Idx → EReal) =
    shapeCast S1x4096 (Host.reduceAdd (F := Ideal) (mulf (arrC m c) (arrC m c))
      (constant (F := Ideal) S_ .f32 0x00000000#32) reducesTo_S4096x64_S4096_d1 h_S_) shapeCasts_S4096_S1x4096 := by
  dsimp only [Gen.V, Gen.hostOps0]; after_results; rfl

/-- At centre Q it holds the sum of the squares of the centre's 64 coordinates. -/
theorem norms_row_apply (c : Dev nD) (Q : Fin 4096) :
    (V m c main_v2 : S1x4096.Idx → EReal) (ix2 (0 : Fin 1) Q)
      = ∑ k : Fin 64, arrC m c (ix2 Q k) * arrC m c (ix2 Q k) := by
  have hR : S4096x64.Reduces [1] S4096 := by decide
  rw [norms_row, shapeCast_a_1a_apply]
  simp only [Host.reduceAdd, Ideal.hostReduceAdd_def]
  rw [Ideal.hostReduceAdd_single reducesTo_S4096x64_S4096_d1 hR]
  show Ideal.ofBits .f32 0x00000000#32 + _ = _
  rw [Ideal.ofBits_zero_f32, zero_add]
  refine Finset.sum_congr rfl fun k _ => ?_
  have e : hR.lift (ix1 Q) k = ix2 Q k :=
    funext fun a => Fin.ext (by match a with | ⟨0, _⟩ => rfl | ⟨1, _⟩ => rfl)
  show arrC m c (hR.lift (ix1 Q) k) * arrC m c (hR.lift (ix1 Q) k) = _
  rw [e]
  rfl

/-- The widths row as the region finds it. -/
theorem widths_row (c : Dev nD) : (V m c main_v6 : S1x4096.Idx → EReal) =
    shapeCast S1x4096 (Host.exp (F := Ideal) (mulf (broadcastInDim S4096 ![] bcast_S_S4096 (constant (F := Ideal) S_ .f32 0xC0000000#32))
      (arrL m c))) shapeCasts_S4096_S1x4096 := by
  dsimp only [Gen.V, Gen.hostOps0]; after_results; rfl

theorem widths_row_apply (c : Dev nD) (Q : Fin 4096) :
    (V m c main_v6 : S1x4096.Idx → EReal) (ix2 (0 : Fin 1) Q)
      = Ideal.exp (Ideal.ofBits .f32 0xC0000000#32 * arrL m c (ix1 Q)) := by
  rw [widths_row, shapeCast_a_1a_apply]
  rfl

/-! ## The index maps, decided over the grid -/

theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = 0 ∧ win0_2.index t (1 : Fin 2) = win0_4.index t (1 : Fin 2)
    ∧ win0_3.index t (0 : Fin 2) = 0 ∧ win0_3.index t (1 : Fin 2) = win0_4.index t (1 : Fin 2)
    ∧ win0_4.index t (0 : Fin 2) ≤ 15 ∧ win0_4.index t (1 : Fin 2) ≤ 3 :=
  (by decide +kernel : ∀ t : Fin grid0.N, _)

theorem idx_onto : ∀ (q0 : Fin 16) (q1 : Fin 4), ∃ t : Fin cfg0.N, win0_4.index t = ![q0.val, q1.val] :=
  (by decide +kernel : ∀ (q0 : Fin 16) (q1 : Fin 4), ∃ t : Fin grid0.N, win0_4.index t = ![q0.val, q1.val])

/-! ## The four input blocks of a point, read off the arrays -/

theorem x_block (c : Dev nD) (t : Fin cfg0.N) (p : Fin 1024) (k : Fin 64) (P : Fin 16384)
    (hP : P.val = win0_4.index t (0 : Fin 2) * 1024 + p.val) :
    (iblk m c 0 t : FVec Ideal S1024x64 .f32) (ix2 p k) = arrX m c (ix2 P k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 1024 + 1 * p.val = P.val; omega
  | ⟨1, _⟩ => show win0_0.index t (1 : Fin 2) * 64 + 1 * k.val = k.val; omega

theorem c_block (c : Dev nD) (t : Fin cfg0.N) (q : Fin 1024) (k : Fin 64) (Q : Fin 4096)
    (hQ : Q.val = win0_4.index t (1 : Fin 2) * 1024 + q.val) :
    (iblk m c 1 t : FVec Ideal S1024x64 .f32) (ix2 q k) = arrC m c (ix2 Q k) := by
  obtain ⟨-, -, e2, e3, -⟩ := idx_facts t
  show V m c main_arg1 (((cfg0.win 1).blk t).view.emb (ix2 q k)) = _
  rw [V_main_arg1]
  refine congrArg _ (funext fun a => Fin.ext ?_)
  match a with
  | ⟨0, _⟩ => show win0_1.index t (0 : Fin 2) * 1024 + 1 * q.val = Q.val; omega
  | ⟨1, _⟩ => show win0_1.index t (1 : Fin 2) * 64 + 1 * k.val = k.val; omega

theorem norms_block (c : Dev nD) (t : Fin cfg0.N) (q : Fin 1024) (Q : Fin 4096)
    (hQ : Q.val = win0_4.index t (1 : Fin 2) * 1024 + q.val) :
    (iblk m c 2 t : FVec Ideal S1x1024 .f32) (ix2 (0 : Fin 1) q)
      = ∑ k : Fin 64, arrC m c (ix2 Q k) * arrC m c (ix2 Q k) := by
  obtain ⟨-, -, -, -, e4, e5, -⟩ := idx_facts t
  refine Eq.trans ?_ (norms_row_apply m c Q)
  show V m c main_v2 (((cfg0.win 2).blk t).view.emb (ix2 (0 : Fin 1) q)) = V m c main_v2 (ix2 (0 : Fin 1) Q)
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * q.val = Q.val; omega

theorem widths_block (c : Dev nD) (t : Fin cfg0.N) (q : Fin 1024) (Q : Fin 4096)
    (hQ : Q.val = win0_4.index t (1 : Fin 2) * 1024 + q.val) :
    (iblk m c 3 t : FVec Ideal S1x1024 .f32) (ix2 (0 : Fin 1) q)
      = Ideal.exp (Ideal.ofBits .f32 0xC0000000#32 * arrL m c (ix1 Q)) := by
  obtain ⟨-, -, -, -, -, -, e6, e7, -⟩ := idx_facts t
  refine Eq.trans ?_ (widths_row_apply m c Q)
  show V m c main_v6 (((cfg0.win 3).blk t).view.emb (ix2 (0 : Fin 1) q)) = V m c main_v6 (ix2 (0 : Fin 1) Q)
  refine congrArg _ (funext fun a => Fin.ext ?_)
  match a with
  | ⟨0, _⟩ => show win0_3.index t (0 : Fin 2) * 1 + 1 * 0 = 0; omega
  | ⟨1, _⟩ => show win0_3.index t (1 : Fin 2) * 1024 + 1 * q.val = Q.val; omega

/-! ## What a point writes back -/

/-- Point t writes back block t of the layer's function of the arguments. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero hz]
  simp only [View.ld_unit_zero (S := S1024x64) hz, View.ld_unit_zero (S := S1x1024) hz]
  obtain ⟨-, -, -, -, -, -, -, -, b0, b1⟩ := idx_facts t
  funext j
  obtain ⟨p, q, rfl⟩ : ∃ (p q : Fin 1024), j = ix2 p q :=
    ⟨⟨(j 0).val, (j 0).isLt⟩, ⟨(j 1).val, (j 1).isLt⟩, funext fun a => Fin.ext (by match a with | ⟨0, _⟩ => rfl | ⟨1, _⟩ => rfl)⟩
  show k0_pay1 (F := Ideal) (iblk m c 0 t) (iblk m c 1 t) (iblk m c 2 t) (iblk m c 3 t) (ix2 p q)
      = result m c (((cfg0.win 4).blk t).view.emb (ix2 p q))
  have hP : win0_4.index t (0 : Fin 2) * 1024 + p.val < 16384 := by have := p.isLt; omega
  have hQ : win0_4.index t (1 : Fin 2) * 1024 + q.val < 4096 := by have := q.isLt; omega
  refine (Point.stored_apply (iblk m c 0 t) (iblk m c 1 t) (iblk m c 2 t) (iblk m c 3 t) p q).trans ?_
  refine Eq.trans ?_ (Cert.Rbf.rbf_of_coords (arrX m c) (arrC m c) (arrL m c) _ ⟨_, hP⟩ ⟨_, hQ⟩ ?_ ?_).symm
  · unfold Cert.Rbf.rbfAt Cert.Rbf.sqDist
    have hx : ∀ k : Fin 64, (iblk m c 0 t : FVec Ideal S1024x64 .f32) (ix2 p k) = arrX m c (ix2 ⟨_, hP⟩ k) :=
      fun k => x_block m c t p k _ rfl
    have hc : ∀ k : Fin 64, (iblk m c 1 t : FVec Ideal S1024x64 .f32) (ix2 q k) = arrC m c (ix2 ⟨_, hQ⟩ k) :=
      fun k => c_block m c t q k _ rfl
    have hn := norms_block m c t q ⟨_, hQ⟩ rfl
    have hw := widths_block m c t q ⟨_, hQ⟩ rfl
    simp only [hx, hc, hn, hw, zero_sub]
  · show win0_4.index t (0 : Fin 2) * 1024 + 1 * p.val = win0_4.index t (0 : Fin 2) * 1024 + p.val; omega
  · show win0_4.index t (1 : Fin 2) * 1024 + 1 * q.val = win0_4.index t (1 : Fin 2) * 1024 + q.val; omega

/-! ## The blocks tile the result -/

/-- An index is in point t's block iff each coordinate is in the block's range on its axis. -/
theorem mem_block (t : Fin cfg0.N) (i : S16384x4096.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v7).slice (win0_4.rect t)).set ↔ _
  rw [View.set_slice_whole, Rect.mem_set_unit]
  exact Iff.rfl

/-- Every index of the result is in the block of the point (row / 1024, column / 1024). -/
theorem cover (i : S16384x4096.Idx) : ∃ t : Fin cfg0.N, (cfg0.win 4).flush t = true ∧ i ∈ ((cfg0.win 4).blk t).view.set := by
  have hi0 : (i 0).val < 16384 := (i 0).isLt
  have hi1 : (i 1).val < 4096 := (i 1).isLt
  obtain ⟨t, ht⟩ := idx_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_block]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- After the run the result array is the layer's function of the arguments. -/
theorem final (c : Dev nD) : (dats m 0 c).arrAt 4 cfg0.N = result m c :=
  (dats m 0 c).arrAt_eq_of_cover 4 (result m c) (fun t _ => flushed_eq m c t) cover

/-- The kernel's run, with the result named. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.lean ====
/-
  The radial-basis layer `exp (-max(‖x‖² + ‖c‖² - 2 x·c, 0) · exp (-2 · ls))` over x [16384, 64], centres [4096, 64] and
  log-widths [4096]: a 16 × 4 grid of [1024, 1024] output blocks, each from a [1024, 64] block of `x`, a [1024, 64] block of
  the centres and two [1, 1024] rows the host prepares (the centres' squared norms and the inverse squared widths),
  against the same expression written with whole arrays.

  On the extended reals the two differ in three spellings only. The kernel's bf16 casts before the matrix product are
  the identity. The kernel negates by subtracting from zero, `0 - a = -a`. And the reference doubles `x` before the
  product, `∑ₖ (2 · x[p,k]) · c[q,k]`, where the kernel doubles the product, `2 · ∑ₖ x[p,k] · c[q,k]`: equal because a
  nonnegative finite factor distributes over any finite sum of extended reals (Proof/RbfSpec.lean). The finiteness of
  the inputs is not used.

  Proof/RbfSpec.lean states the layer as one function of the three arrays; Proof/RefValue.lean reads the reference's
  run down to it; Proof/KernelPoint.lean reads one grid point's stored block at an element; Proof/KernelArray.lean reads the
  point's blocks off the arrays, identifies what the point writes back with the block of the layer's function, and covers
  the result with the 64 blocks. The frames are the generated ones; no operation was rewritten for the idealized kernel, so `preserves`
  is trivial.
-/
import proofs.«110846_j49572512530486_1_alg».proof.Defs
import proofs.«110846_j49572512530486_1_alg».proof.Proof.Gen.Kernel
import proofs.«110846_j49572512530486_1_alg».proof.Proof.Gen.Kernel.Skeleton
import proofs.«110846_j49572512530486_1_alg».proof.Proof.Gen.Kernel.Launch
import proofs.«110846_j49572512530486_1_alg».proof.Proof.Gen.Kernel.Points
import proofs.«110846_j49572512530486_1_alg».proof.Proof.Gen.Kernel.Frame
import proofs.«110846_j49572512530486_1_alg».proof.Proof.Gen.KernelIdeal
import proofs.«110846_j49572512530486_1_alg».proof.Proof.Gen.KernelIdeal.Skeleton
import proofs.«110846_j49572512530486_1_alg».proof.Proof.Gen.KernelIdeal.Launch
import proofs.«110846_j49572512530486_1_alg».proof.Proof.Gen.KernelIdeal.Points
import proofs.«110846_j49572512530486_1_alg».proof.Proof.Gen.KernelIdeal.Frame
import proofs.«110846_j49572512530486_1_alg».proof.Proof.Gen.ReferenceIdeal
import proofs.«110846_j49572512530486_1_alg».proof.Proof.Gen.Pre_finite_inputs
import proofs.«110846_j49572512530486_1_alg».proof.Proof.Gen.KernelIdeal.Value
import proofs.«110846_j49572512530486_1_alg».proof.Proof.Gen.ReferenceIdeal.Run
import proofs.«110846_j49572512530486_1_alg».proof.Proof.Gen.ReferenceIdeal.Read
import proofs.«110846_j49572512530486_1_alg».proof.Proof.RefValue
import proofs.«110846_j49572512530486_1_alg».proof.Proof.KernelArray
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the layer's function of arguments that agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
